-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x4096 : Shape := ⟨3, ![64, 128, 4096]⟩
abbrev S_ : Shape := ⟨0, ![]⟩

class Facts : Prop where
  bcast_S_S64x128x4096 : S_.BroadcastsInDim S64x128x4096 (![] : Fin 0 → Fin S64x128x4096.rank)
  reducesTo_S64x128x4096_S_d0_1_2 : S64x128x4096.ReducesTo [0, 1, 2] S_
  h_S_ : 0 < S_.numel

variable [Facts]

def fn {F : FTy → Type} [FloatOps F] (main_arg0 : FVec F S64x128x4096 .f32) (main_arg1 : FVec F S64x128x4096 .f32) : IVec S_ 1 :=
  let main_v0 : FVec F S64x128x4096 .f32 := Host.absf main_arg0
  let main_cst : FVec F S_ .f32 := constant S_ .f32 0x7F800000#32
  let main_v1 : FVec F S64x128x4096 .f32 := broadcastInDim S64x128x4096 ![] bcast_S_S64x128x4096 main_cst
  let main_v2 : IVec S64x128x4096 1 := cmpf .olt main_v0 main_v1
  let main_c : IVec S_ 1 := constantI S_ 1 1#1
  let main_v3 : IVec S_ 1 := (fun x v => Host.reduce IntOp.andi x v reducesTo_S64x128x4096_S_d0_1_2 h_S_) main_v2 main_c
  let main_v4 : FVec F S64x128x4096 .f32 := Host.absf main_arg1
  let main_cst_0 : FVec F S_ .f32 := constant S_ .f32 0x7F800000#32
  let main_v5 : FVec F S64x128x4096 .f32 := broadcastInDim S64x128x4096 ![] bcast_S_S64x128x4096 main_cst_0
  let main_v6 : IVec S64x128x4096 1 := cmpf .olt main_v4 main_v5
  let main_c_1 : IVec S_ 1 := constantI S_ 1 1#1
  let main_v7 : IVec S_ 1 := (fun x v => Host.reduce IntOp.andi x v reducesTo_S64x128x4096_S_d0_1_2 h_S_) main_v6 main_c_1
  let main_v8 : IVec S_ 1 := andi main_v3 main_v7
  main_v8
-- ==== Kernel.lean ====
abbrev S64x128x4096 : Shape := ⟨3, ![64, 128, 4096]⟩
abbrev S8192x4096 : Shape := ⟨2, ![8192, 4096]⟩
abbrev S2x1x1 : Shape := ⟨3, ![2, 1, 1]⟩
abbrev S512x4096 : Shape := ⟨2, ![512, 4096]⟩
abbrev S1x1x1 : Shape := ⟨3, ![1, 1, 1]⟩
abbrev S1x1 : Shape := ⟨2, ![1, 1]⟩
abbrev S512 : Shape := ⟨1, ![512]⟩
abbrev S1x512 : Shape := ⟨2, ![1, 512]⟩
abbrev S1 : Shape := ⟨1, ![1]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S64x128x4096, .f32⟩
  | .hbm, ⟨1, _⟩ => ⟨S64x128x4096, .f32⟩
  | .hbm, ⟨2, _⟩ => ⟨S8192x4096, .f32⟩
  | .hbm, ⟨3, _⟩ => ⟨S8192x4096, .f32⟩
  | .hbm, ⟨4, _⟩ => ⟨S2x1x1, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S64x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S64x128x4096_S8192x4096 : S64x128x4096.ShapeCasts S8192x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x128x4096 : Shape := ⟨3, ![64, 128, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S64x128x4096, .f32⟩
  | .hbm, ⟨1, _⟩ => ⟨S64x128x4096, .f32⟩
  | .hbm, ⟨2, _⟩ => ⟨S64x128x4096, .f32⟩
  | .hbm, ⟨3, _⟩ => ⟨S64x128x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | _, _ => ⟨S64x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S64x128x4096_S_d0_1_2 : S64x128x4096.ReducesTo [0, 1, 2] S_
  h_S_ : 0 < S_.numel

variable [Facts₀]

class Facts : Prop extends Facts₀ where

variable [Facts]
-- ==== Proof.TileStep.lean ====
/-
  What one grid point leaves behind, as values.

  The body keeps a one-entry running total in a scratch cell.  At the first of a core's eight points it
  stores zero there; at every point it reads the cell back, adds the point's tile total, and stores the
  result; at the last of the eight it also copies the cell into the core's output entry.  So, whatever the
  float instance, the cell after a point is one update `step` of what it held before (of the stored zero at
  a first point), and the output entry written at a last point is the updated cell, reshaped.
-/
import proofs.«137766_j6820408066429_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.TileStep

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The cell after a point that found `cell` in it: the cell plus the total of the point's tile pair. -/
abbrev step (x0 x1 : Vec F S512x4096 .f32) (cell : Vec F S1x1 .f32) : Vec F S1x1 .f32 := k0_pay2 x0 x1 cell
/-- The zero a core's first point stores before it accumulates. -/
abbrev cleared : Vec F S1x1 .f32 := k0_pay1
/-- The output entry a core's last point writes: the cell as a 1×1×1 block. -/
abbrev emit (cell : Vec F S1x1 .f32) : Vec F S1x1x1 .f32 := k0_pay3 cell

/-- A core's first point: the cell is cleared, then updated. -/
theorem cell_first (c : Dev nD) (i : grid0.Coords) (a2 : Memref sig .tc .vmem S512x4096 .f32) (h2 : a2.IsWhole)
    (a3 : Memref sig .tc .vmem S512x4096 .f32) (h3 : a3.IsWhole) (a4 : Memref sig .tc .vmem S1x1x1 .f32) (h4 : a4.IsWhole)
    (a5 : Memref sig .tc .vmem S1x1 .f32) (h5 : a5.IsWhole) (hc0 : cond0_0 i) (hc1 : ¬cond0_1 i)
    (x0 x1 : Vec F S512x4096 .f32) :
    sout0_A_0 c i a2 h2 a3 h3 a4 h4 a5 h5 hc0 hc1 x0 x1 = step x0 x1 cleared := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) zero2, View.readCov_unit_zero (S := S1x1) _ zero2]
  simp only [View.readAt_eq_ld, h2.read_unread, h3.read_unread, View.ld_unit_zero (S := S512x4096) zero2]

/-- A middle point: the cell is updated. -/
theorem cell_middle (c : Dev nD) (i : grid0.Coords) (a2 : Memref sig .tc .vmem S512x4096 .f32) (h2 : a2.IsWhole)
    (a3 : Memref sig .tc .vmem S512x4096 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : ¬cond0_1 i)
    (x0 x1 : Vec F S512x4096 .f32) (cell : Vec F S1x1 .f32) :
    sout0_B_0 c i a2 h2 a3 h3 a4 h4 a5 h5 hc0 hc1 x0 x1 cell = step x0 x1 cell := by
  unfold sout0_B_0
  rw [View.read_writes_eq_canon _ _ _ (scover0_B_0 c i a2 h2 a3 h3 a4 h4 a5 h5 hc0 hc1 x0 x1 cell)]
  unfold kernelRun0_B
  dsimp only
  sl_unfold_words
  rw [View.canon_unit_zero zero2]
  simp only [View.readAt_eq_ld, h2.read_unread, h3.read_unread, h5.read_unread, View.ld_unit_zero (S := S512x4096) zero2,
    View.ld_unit_zero (S := S1x1) zero2]

/-- A core's last point updates the cell as a middle point does. -/
theorem cell_last (c : Dev nD) (i : grid0.Coords) (a2 : Memref sig .tc .vmem S512x4096 .f32) (h2 : a2.IsWhole)
    (a3 : Memref sig .tc .vmem S512x4096 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : Vec F S512x4096 .f32) (cell : Vec F S1x1 .f32) :
    sout0_C_0 c i a2 h2 a3 h3 a4 h4 a5 h5 hc0 hc1 x0 x1 cell = step x0 x1 cell := by
  unfold sout0_C_0
  rw [View.read_writes_eq_canon _ _ _ (scover0_C_0 c i a2 h2 a3 h3 a4 h4 a5 h5 hc0 hc1 x0 x1 cell)]
  unfold kernelRun0_C
  dsimp only
  sl_unfold_words
  rw [View.canon_unit_zero zero2]
  simp only [View.readAt_eq_ld, h2.read_unread, h3.read_unread, h5.read_unread, View.ld_unit_zero (S := S512x4096) zero2,
    View.ld_unit_zero (S := S1x1) zero2]

/-- A core's last point also writes the core's output entry, from the updated cell. -/
theorem out_last (c : Dev nD) (i : grid0.Coords) (a2 : Memref sig .tc .vmem S512x4096 .f32) (h2 : a2.IsWhole)
    (a3 : Memref sig .tc .vmem S512x4096 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : Vec F S512x4096 .f32) (cell : Vec F S1x1 .f32) :
    out0_C_2 c i a2 h2 a3 h3 a4 h4 a5 h5 hc0 hc1 x0 x1 cell = emit (step x0 x1 cell) := by
  unfold out0_C_2
  rw [View.read_writes_eq_canon _ _ _ (cover0_C_2 c i a2 h2 a3 h3 a4 h4 a5 h5 hc0 hc1 x0 x1 cell)]
  unfold kernelRun0_C
  dsimp only
  sl_unfold_words
  rw [View.canon_unit_zero zero3]
  simp only [View.readAt_eq_ld, h2.read_unread, h3.read_unread, h5.read_unread, View.ld_unit_zero (S := S512x4096) zero2,
    View.ld_unit_zero (S := S1x1) zero2, View.readCov_unit_zero (S := S1x1) _ zero2]

end Cert.KernelIdeal.TileStep

end
-- ==== Proof.AbsSum.lean ====
/-
  The L1 distance of two arrays over the extended reals, and the ways a sum over an index set is cut up.

  Both programs compute  Σᵢ |aᵢ − bᵢ|  over all 64·128·4096 entries and divide by that count.  They differ
  only in how the sum is bracketed: one adds all entries at once, the other views the arrays as 8192 rows of
  4096, cuts the rows into sixteen tiles of 512, sums each tile lane-by-lane and then row-by-row, and adds
  the tile totals in order.  Addition on the extended reals is commutative and associative (no cancellation
  is used), so every bracketing is the same number; the lemmas here say so for each re-indexing involved:
  a reshape (`l1_shapeCast`), a reduction along some axes followed by a sum of the partial results
  (`sum_multiReduction_add`, `two_stage_total`), and the cut of 8192 rows into 16 × 512 (`l1_tiles`).
-/
import Idealize.ShloMosaic.PureOps.Ideal
import Idealize.ShloMosaic.PureOps.Ideal.Laws

noncomputable section

namespace Cert.L1

open Idealize.ShloMosaic

/-- `|x − y|` on the extended reals, spelt with the operations both programs apply. -/
def gap (x y : EReal) : EReal :=
  FloatOps.absf (F := Ideal) (φ := .f32) (FloatOps.subf (F := Ideal) (φ := .f32) x y)

/-- The L1 distance of two arrays of one shape: the sum of the gaps over every index. -/
def l1 {s : Shape} (a b : s.Idx → EReal) : EReal := ∑ i : s.Idx, gap (a i) (b i)

/-- A reshape permutes the indices, so it does not change the distance. -/
theorem l1_shapeCast {s t : Shape} (a b : s.Idx → EReal) (h : s.ShapeCasts t) :
    l1 (shapeCast t a h) (shapeCast t b h) = l1 a b :=
  Equiv.sum_comp (Shape.reshapeEquiv h) fun i => gap (a i) (b i)

/-- Summing the partial sums of a reduction along some axes gives the total: every source index drops to
    exactly one reduced index. -/
theorem sum_multiReduction_add {s t : Shape} {axes : List (Fin s.rank)} (src : FVec Ideal s .f32) (acc : BitVec 32)
    (h : s.Reduces axes t) (hφ : FKind.Formats .f32) (hacc : acc = FKind.add.neutral .f32 hφ) :
    ∑ j : t.Idx, multiReduction .add axes t src acc h hφ hacc j = ∑ i : s.Idx, src i :=
  Finset.sum_fiberwise Finset.univ h.drop src

/-- A reduction to partial sums, a reshape of those, and a second reduction down to one entry: the entry is
    the total of the source. -/
theorem two_stage_total {s r r' u : Shape} {ax : List (Fin s.rank)} {ax' : List (Fin r'.rank)}
    (src : FVec Ideal s .f32) (acc : BitVec 32) (h₁ : s.Reduces ax r) (hc : r.ShapeCasts r') (h₂ : r'.Reduces ax' u)
    (hu : ∀ b, u.size b = 1) (hφ : FKind.Formats .f32) (hacc : acc = FKind.add.neutral .f32 hφ) (j : u.Idx) :
    multiReduction .add ax' u (shapeCast r' (multiReduction .add ax r src acc h₁ hφ hacc) hc) acc h₂ hφ hacc j
      = ∑ i : s.Idx, src i := by
  rw [Ideal.multiReduction_add_total _ _ h₂ hu hφ hacc j]
  exact (Equiv.sum_comp (Shape.reshapeEquiv hc) _).trans (sum_multiReduction_add src acc h₁ hφ hacc)

/-! ## Sixteen tiles of 512 rows -/

/-- A tile: 512 rows of 4096. -/
abbrev Tile : Shape := ⟨2, ![512, 4096]⟩
/-- The two-dimensional view of the arguments: 8192 rows of 4096. -/
abbrev Rows : Shape := ⟨2, ![8192, 4096]⟩

/-- Entry `y` of tile `t` is row `512·t + y₀`, lane `y₁` of the whole. -/
def tile (t : Fin 16) (y : Tile.Idx) : Rows.Idx := fun a =>
  match a with
  | ⟨0, _⟩ => ⟨512 * t.val + (y 0).val, by
      have h : (y 0).val < 512 := (y 0).isLt
      have := t.isLt; show _ < 8192; omega⟩
  | ⟨1, _⟩ => ⟨(y 1).val, (y 1).isLt⟩

/-- Which tile a row lies in, and where. -/
def untile (j : Rows.Idx) : Fin 16 × Tile.Idx :=
  (⟨(j 0).val / 512, by have h : (j 0).val < 8192 := (j 0).isLt; omega⟩, fun a =>
    match a with
    | ⟨0, _⟩ => ⟨(j 0).val % 512, Nat.mod_lt _ (by decide)⟩
    | ⟨1, _⟩ => ⟨(j 1).val, (j 1).isLt⟩)

/-- The sixteen tiles partition the rows. -/
def tileEquiv : Fin 16 × Tile.Idx ≃ Rows.Idx where
  toFun p := tile p.1 p.2
  invFun := untile
  left_inv := fun ⟨t, y⟩ => by
    have h : (y 0).val < 512 := (y 0).isLt
    refine Prod.ext (Fin.ext ?_) (funext fun a => ?_)
    · show (512 * t.val + (y 0).val) / 512 = t.val
      omega
    · match a with
      | ⟨0, _⟩ => exact Fin.ext (show (512 * t.val + (y 0).val) % 512 = (y 0).val by omega)
      | ⟨1, _⟩ => rfl
  right_inv := fun j => funext fun a => by
    match a with
    | ⟨0, _⟩ => exact Fin.ext (show 512 * ((j 0).val / 512) + (j 0).val % 512 = (j 0).val by omega)
    | ⟨1, _⟩ => rfl

/-- The distance is the sum of the sixteen tiles' distances. -/
theorem l1_tiles (a b : Rows.Idx → EReal) :
    ∑ t : Fin 16, l1 (fun y : Tile.Idx => a (tile t y)) (fun y => b (tile t y)) = l1 a b := by
  unfold l1
  rw [← Fintype.sum_prod_type' (f := fun (t : Fin 16) (y : Tile.Idx) => gap (a (tile t y)) (b (tile t y)))]
  exact Equiv.sum_comp tileEquiv fun j => gap (a j) (b j)

end Cert.L1

end
-- ==== Proof.CellTotal.lean ====
/-
  The running total over a core's eight points, over the extended reals.

  At the ideal instance one update of the cell adds the L1 distance of the point's two tiles to it
  (`step_ideal`: the lane sums followed by the row sum are the tile's total, `L1.two_stage_total`), and the
  cleared cell is zero.  The cell is cleared at the points 0 and 8 and updated at every point, so after point
  `t` it holds the sum of the tile distances from the last multiple of eight up to `t`
  (`cell_after`); the output entry written at points 7 and 15 is that sum over the core's eight tiles.
-/
import proofs.«137766_j6820408066429_1_alg».proof.Proof.TileStep
import proofs.«137766_j6820408066429_1_alg».proof.Proof.AbsSum
import Idealize.ShloMosaic.PureOps.Ideal.Laws

noncomputable section

open Idealize.ShloMosaic Idealize.ShloMosaic.TcCoe Idealize.SL.Sem

namespace Cert.KernelIdeal.CellTotal

open Cert.KernelIdeal Cert.KernelIdeal.Gen Cert.KernelIdeal.TileStep Cert.L1

/-- One update adds the tile pair's L1 distance to the cell. -/
theorem step_ideal (x0 x1 : Vec Ideal S512x4096 .f32) (cell : Vec Ideal S1x1 .f32) :
    step (F := Ideal) x0 x1 cell = fun j => cell j + l1 x0 x1 := by
  funext j
  have total := fun u => two_stage_total (absf (subf x0 x1)) 0x00000000#32 reduces_S512x4096_S512
    shapeCasts_S512_S1x512 reduces_S1x512_S1 (fun b => by fin_cases b; rfl) (.inl rfl) rfl u
  show k0_pay2 x0 x1 cell j = _
  unfold k0_pay2
  simp only [shapeCast_self]
  exact congrArg (cell j + ·) (total _)

/-- The cleared cell holds zero. -/
theorem cleared_ideal : cleared (F := Ideal) = fun _ => (0 : EReal) := by
  funext j
  show k0_pay1 (F := Ideal) j = _
  unfold k0_pay1
  simp only [shapeCast_self]
  exact Ideal.ofBits_zero_f32

variable (m : (ℓ : Loc nD τ sig) → Buf (Elt Ideal) ℓ)

/-- The tile of the first operand that point `t` sees, -/
abbrev tile0 (c : Dev nD) (t : Fin cfg0.N) : Vec Ideal S512x4096 .f32 := iblk m c 0 t
/-- and of the second. -/
abbrev tile1 (c : Dev nD) (t : Fin cfg0.N) : Vec Ideal S512x4096 .f32 := iblk m c 1 t

/-- The L1 distance of the two tiles at point `n` (zero past the grid, where nothing reads it). -/
def tileDist (c : Dev nD) (n : ℕ) : EReal :=
  if h : n < cfg0.N then l1 (tile0 m c ⟨n, h⟩) (tile1 m c ⟨n, h⟩) else 0

/-- The cell after point `t`: the tile distances summed from the last multiple of eight through `t`. -/
theorem cell_after (c : Dev nD) (t : ℕ) (ht : t < cfg0.N) (j : S1x1.Idx) :
    (outsAt0 m c t ht).2 j = 0 + ∑ s ∈ Finset.range (t % 8 + 1), tileDist m c (8 * (t / 8) + s) := by
  have hN : cfg0.N = 16 := N_0
  have h' : 8 * (t / 8) + t % 8 < cfg0.N := by omega
  rw [Pipeline.eq_accAt_of_mod (fun n h => (outsAt0 m c n h).2) 8
    (fun n h => step (tile0 m c ⟨n, h⟩) (tile1 m c ⟨n, h⟩) cleared)
    (fun n h cell => step (tile0 m c ⟨n, h⟩) (tile1 m c ⟨n, h⟩) cell) ?first ?later (by decide) t ht h']
  case first =>
    intro n h h0
    have h1 : ¬(⟨n, h⟩ : Fin cfg0.N).val % 8 = 7 := by dsimp only; omega
    show (outsAt0 m c (⟨n, h⟩ : Fin cfg0.N).val _).2 = _
    rw [outsAt0_A m c ⟨n, h⟩ h0 h1]
    dsimp only
    exact cell_first (F := Ideal) c (grid0.coords ⟨n, h⟩) (ms0_0 ⟨n, h⟩) (hs0_0 ⟨n, h⟩) (ms0_1 ⟨n, h⟩) (hs0_1 ⟨n, h⟩)
      (ms0_2 ⟨n, h⟩) (hs0_2 ⟨n, h⟩) scM0_0 (Memref.isWhole_whole _) _ _ (tile0 m c ⟨n, h⟩) (tile1 m c ⟨n, h⟩)
  case later =>
    intro n h h0
    by_cases h1 : (⟨n + 1, h⟩ : Fin cfg0.N).val % 8 = 7
    · show (outsAt0 m c (⟨n + 1, h⟩ : Fin cfg0.N).val _).2 = _
      rw [outsAt0_C m c ⟨n + 1, h⟩ h0 h1]
      dsimp only
      exact cell_last (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _
        (tile0 m c ⟨n + 1, h⟩) (tile1 m c ⟨n + 1, h⟩) (outsAt0 m c n (Nat.lt_of_succ_lt h)).2
    · show (outsAt0 m c (⟨n + 1, h⟩ : Fin cfg0.N).val _).2 = _
      rw [outsAt0_B m c ⟨n + 1, h⟩ h0 h1]
      dsimp only
      exact cell_middle (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _
        (tile0 m c ⟨n + 1, h⟩) (tile1 m c ⟨n + 1, h⟩) (outsAt0 m c n (Nat.lt_of_succ_lt h)).2
  exact Pipeline.accAt_add_apply _ _ (fun _ => (0 : EReal)) (fun n _ => tileDist m c n) (8 * (t / 8)) 7
    (fun h i => by rw [step_ideal, cleared_ideal]; unfold tileDist; rw [dif_pos h])
    (fun n h cell i _ _ => by rw [step_ideal]; unfold tileDist; rw [dif_pos h])
    (t % 8) (by omega) h' j

/-- The output entry a core's last point writes holds the sum of the core's eight tile distances. -/
theorem out_after (c : Dev nD) (t : Fin cfg0.N) (h7 : t.val % 8 = 7) (k : S1x1x1.Idx) :
    (outsAt0 m c t.val t.isLt).1 k = 0 + ∑ s ∈ Finset.range 8, tileDist m c (8 * (t.val / 8) + s) := by
  have hN : cfg0.N = 16 := N_0
  have h0 : ¬t.val % 8 = 0 := by omega
  rw [outsAt0_C m c t h0 h7]
  dsimp only
  rw [out_last (F := Ideal) c (grid0.coords t) (ms0_0 t) (hs0_0 t) (ms0_1 t) (hs0_1 t) (ms0_2 t) (hs0_2 t) scM0_0
    (Memref.isWhole_whole _) _ _ (tile0 m c t) (tile1 m c t)
    (outsAt0 m c (t.val - 1) (Nat.lt_of_le_of_lt (Nat.sub_le _ _) t.isLt)).2]
  have hc := cell_after m c t.val t.isLt (Shape.reshapeEquiv shapeCasts_S1x1_S1x1x1 k)
  rw [outsAt0_C m c t h0 h7] at hc
  dsimp only at hc
  rw [cell_last (F := Ideal) c (grid0.coords t) (ms0_0 t) (hs0_0 t) (ms0_1 t) (hs0_1 t) (ms0_2 t) (hs0_2 t) scM0_0
    (Memref.isWhole_whole _) _ _ (tile0 m c t) (tile1 m c t)
    (outsAt0 m c (t.val - 1) (Nat.lt_of_le_of_lt (Nat.sub_le _ _) t.isLt)).2, h7] at hc
  exact hc

end Cert.KernelIdeal.CellTotal

end
-- ==== Proof.KernelValue.lean ====
/-
  The kernel's result over the extended reals.

  The region's output array has one entry per core, written at that core's last point (points 7 and 15):
  entry `q` ends holding the sum of the L1 distances of tiles `8q … 8q + 7` (`partials`).  The lines after the
  region take the two entries, add them and divide by the literal 2²⁵.  Point `t`'s tiles are rows
  `512·t … 512·t + 511` of the arguments viewed as 8192 rows of 4096 (`tile0_eq`), the sixteen tiles
  partition those rows and the row view is a reshape of the argument, so the sum of the two entries is the
  L1 distance of the arguments themselves (`sum_partials`), and the result is that distance over 2²⁵ (`run`).
-/
import proofs.«137766_j6820408066429_1_alg».proof.Proof.CellTotal
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.CellTotal Cert.L1
open Idealize.ShloMosaic.ValueIdx (ix3)

variable (m : (ℓ : Loc nD τ sig) → Buf (Elt Ideal) ℓ) (ρ : Dev nD → PrngReg)

/-! ## The region's output array -/

/-- Entry `q` of the output array: the sum of the eight tile distances of core `q`. -/
def partials (c : Dev nD) : S2x1x1.Idx → EReal :=
  fun i => (0 : EReal) + ∑ s ∈ Finset.range 8, tileDist m c (8 * (i 0).val + s)

/-- The output window's block at point `t` is entry `t / 8`. -/
theorem out_index : ∀ t : Fin cfg0.N, win0_2.index t (0 : Fin 3) = t.val / 8 ∧ win0_2.index t (1 : Fin 3) = 0
    ∧ win0_2.index t (2 : Fin 3) = 0 :=
  (by decide +kernel : ∀ t : Fin grid0.N, _)

/-- What a core's last point writes back is its entry of `partials`. -/
theorem flushed_eq (c : Dev nD) (t : Fin cfg0.N) (hf : (cfg0.win 2).flush t = true) :
    (dats m 0 c).flushed 2 t = ((cfg0.win 2).blk t).view.read (Elt Ideal) (partials m c) := by
  have h7 : t.val % 8 = 7 := (flush0_2 t).mp hf
  show (cfg0.win 2).cut (grid0.coords t) ((dats m 0 c).after 2 t) = _
  rw [after0_2]
  funext k
  show (outsAt0 m c t.val t.isLt).1 k = partials m c (((cfg0.win 2).blk t).view.emb k)
  rw [out_after m c t h7 k]
  unfold partials
  have e : ((((cfg0.win 2).blk t).view.emb k) 0).val = t.val / 8 := by
    show win0_2.index t (0 : Fin 3) * 1 + 1 * (k 0).val = _
    have hk : (k 0).val < 1 := (k 0).isLt
    have := (out_index t).1
    omega
  rw [e]

/-- An entry lies in point `t`'s block iff each coordinate is in the block's range on its axis. -/
theorem mem_block (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v2).slice (win0_2.rect t)).set ↔ _
  rw [View.set_slice_whole, Rect.mem_set_unit]
  exact Iff.rfl

/-- The two last points' blocks are the array's two entries. -/
theorem covered (i : S2x1x1.Idx) :
    ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 1 := (i 2).isLt
  have hN : cfg0.N = 16 := N_0
  have hlt : 8 * (i 0).val + 7 < cfg0.N := by omega
  obtain ⟨e0, e1, e2⟩ := out_index ⟨8 * (i 0).val + 7, hlt⟩
  refine ⟨⟨8 * (i 0).val + 7, hlt⟩, (flush0_2 _).mpr (by dsimp only; omega), ?_⟩
  rw [mem_block]
  intro a
  match a with
  | ⟨0, _⟩ =>
    show win0_2.index ⟨8 * (i 0).val + 7, hlt⟩ (0 : Fin 3) * 1 ≤ (i 0).val
      ∧ (i 0).val < win0_2.index ⟨8 * (i 0).val + 7, hlt⟩ (0 : Fin 3) * 1 + 1
    rw [e0]; dsimp only; omega
  | ⟨1, _⟩ =>
    show win0_2.index ⟨8 * (i 0).val + 7, hlt⟩ (1 : Fin 3) * 1 ≤ (i 1).val
      ∧ (i 1).val < win0_2.index ⟨8 * (i 0).val + 7, hlt⟩ (1 : Fin 3) * 1 + 1
    rw [e1]; omega
  | ⟨2, _⟩ =>
    show win0_2.index ⟨8 * (i 0).val + 7, hlt⟩ (2 : Fin 3) * 1 ≤ (i 2).val
      ∧ (i 2).val < win0_2.index ⟨8 * (i 0).val + 7, hlt⟩ (2 : Fin 3) * 1 + 1
    rw [e2]; omega

/-- So the output array ends holding `partials`. -/
theorem out_array (c : Dev nD) : (dats m 0 c).arrAt 2 cfg0.N = partials m c :=
  (dats m 0 c).arrAt_eq_of_cover 2 (partials m c) (flushed_eq m c) covered

/-! ## The tiles are rows of the arguments -/

/-- The input windows' blocks at point `t` are block `t` of the rows, full width. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Point `t`'s tile of the first operand: rows `512·t …` of its row view as the region finds it, -/
theorem tile0_eq (c : Dev nD) (t : Fin cfg0.N) (t' : Fin 16) (ht : t'.val = t.val) :
    tile0 m c t = fun y => V m c main_v0 (tile t' y) := by
  funext y
  obtain ⟨e0, e1, -, -⟩ := in_index t
  show iblk m c 0 t y = _
  unfold iblk
  rw [View.read_apply]
  show V m c main_v0 _ = V m c main_v0 _
  congr 1
  funext a
  apply Fin.ext
  match a with
  | ⟨0, _⟩ => show win0_0.index t (0 : Fin 2) * 512 + 1 * (y 0).val = 512 * t'.val + (y 0).val; rw [e0, ht]; omega
  | ⟨1, _⟩ => show win0_0.index t (1 : Fin 2) * 4096 + 1 * (y 1).val = (y 1).val; rw [e1]; omega

/-- and of the second. -/
theorem tile1_eq (c : Dev nD) (t : Fin cfg0.N) (t' : Fin 16) (ht : t'.val = t.val) :
    tile1 m c t = fun y => V m c main_v1 (tile t' y) := by
  funext y
  obtain ⟨-, -, e0, e1⟩ := in_index t
  show iblk m c 1 t y = _
  unfold iblk
  rw [View.read_apply]
  show V m c main_v1 _ = V m c main_v1 _
  congr 1
  funext a
  apply Fin.ext
  match a with
  | ⟨0, _⟩ => show win0_1.index t (0 : Fin 2) * 512 + 1 * (y 0).val = 512 * t'.val + (y 0).val; rw [e0, ht]; omega
  | ⟨1, _⟩ => show win0_1.index t (1 : Fin 2) * 4096 + 1 * (y 1).val = (y 1).val; rw [e1]; omega

/-- The row view of the first operand is the host's reshape of the argument, -/
theorem rows0_eq (c : Dev nD) : (V m c main_v0 : S8192x4096.Idx → EReal)
    = shapeCast S8192x4096 (m ((c : Thread nD τ).loc main_arg0)) shapeCasts_S64x128x4096_S8192x4096 := by
  show StableHlo.after hostOps0 (fun b => m (c, b)) (Proc.devRef .tc main_v0) = _
  after_results
  rfl

/-- and likewise for the second. -/
theorem rows1_eq (c : Dev nD) : (V m c main_v1 : S8192x4096.Idx → EReal)
    = shapeCast S8192x4096 (m ((c : Thread nD τ).loc main_arg1)) shapeCasts_S64x128x4096_S8192x4096 := by
  show StableHlo.after hostOps0 (fun b => m (c, b)) (Proc.devRef .tc main_v1) = _
  after_results
  rfl

/-! ## The two entries together -/

/-- The sixteen tile distances add up to the L1 distance of the arguments. -/
theorem sum_partials (c : Dev nD) :
    partials m c (ix3 (0 : Fin 2) (0 : Fin 1) (0 : Fin 1)) + partials m c (ix3 (1 : Fin 2) (0 : Fin 1) (0 : Fin 1))
      = l1 (m ((c : Thread nD τ).loc main_arg0)) (m ((c : Thread nD τ).loc main_arg1)) := by
  have hN : cfg0.N = 16 := N_0
  unfold partials
  dsimp only
  rw [zero_add, zero_add]
  show ∑ s ∈ Finset.range 8, tileDist m c (8 * 0 + s) + ∑ s ∈ Finset.range 8, tileDist m c (8 * 1 + s) = _
  simp only [Nat.mul_zero, Nat.mul_one, Nat.zero_add]
  rw [← Finset.sum_range_add (fun s => tileDist m c s) 8 8, Finset.sum_range]
  rw [← l1_shapeCast _ _ shapeCasts_S64x128x4096_S8192x4096, ← rows0_eq m c, ← rows1_eq m c, ← l1_tiles]
  refine Finset.sum_congr rfl fun t _ => ?_
  unfold tileDist
  rw [dif_pos (by have := t.isLt; omega : t.val < cfg0.N), tile0_eq m c ⟨t.val, _⟩ t rfl, tile1_eq m c ⟨t.val, _⟩ t rfl]

/-- The host lines after the region, applied to any output array: its two entries added, over the literal. -/
theorem tail_apply (X : S2x1x1.Idx → EReal) (i : S_.Idx) :
    Host.divf (F := Ideal) (addf
        (shapeCast S_ (extractStridedSlice S1x1x1 ![0, 0, 0] X slices_S2x1x1_S1x1x1_0_0_0) shapeCasts_S1x1x1_S_)
        (shapeCast S_ (extractStridedSlice S1x1x1 ![1, 0, 0] X slices_S2x1x1_S1x1x1_1_0_0) shapeCasts_S1x1x1_S_))
      (constant S_ .f32 0x4C000000#32) i
      = Ideal.div (X (ix3 (0 : Fin 2) (0 : Fin 1) (0 : Fin 1)) + X (ix3 (1 : Fin 2) (0 : Fin 1) (0 : Fin 1)))
          (Ideal.ofBits .f32 0x4C000000#32) := by
  have e0 : ∀ j : S1x1x1.Idx, extractStridedSlice S1x1x1 ![0, 0, 0] X slices_S2x1x1_S1x1x1_0_0_0 j
      = X (ix3 (0 : Fin 2) (0 : Fin 1) (0 : Fin 1)) := fun j => by
    unfold extractStridedSlice
    congr 1
    funext a
    apply Fin.ext
    match a with
    | ⟨0, _⟩ => show 0 + (j 0).val = 0; have : (j 0).val < 1 := (j 0).isLt; omega
    | ⟨1, _⟩ => show 0 + (j 1).val = 0; have : (j 1).val < 1 := (j 1).isLt; omega
    | ⟨2, _⟩ => show 0 + (j 2).val = 0; have : (j 2).val < 1 := (j 2).isLt; omega
  have e1 : ∀ j : S1x1x1.Idx, extractStridedSlice S1x1x1 ![1, 0, 0] X slices_S2x1x1_S1x1x1_1_0_0 j
      = X (ix3 (1 : Fin 2) (0 : Fin 1) (0 : Fin 1)) := fun j => by
    unfold extractStridedSlice
    congr 1
    funext a
    apply Fin.ext
    match a with
    | ⟨0, _⟩ => show 1 + (j 0).val = 1; have : (j 0).val < 1 := (j 0).isLt; omega
    | ⟨1, _⟩ => show 0 + (j 1).val = 0; have : (j 1).val < 1 := (j 1).isLt; omega
    | ⟨2, _⟩ => show 0 + (j 2).val = 0; have : (j 2).val < 1 := (j 2).isLt; omega
  show Ideal.div (extractStridedSlice S1x1x1 ![0, 0, 0] X slices_S2x1x1_S1x1x1_0_0_0 _
      + extractStridedSlice S1x1x1 ![1, 0, 0] X slices_S2x1x1_S1x1x1_1_0_0 _) _ = _
  rw [e0, e1]
  rfl

/-- The result buffer after the run's last line: the L1 distance of the arguments over 2²⁵. -/
theorem tail_eq (c : Dev nD) :
    Pipeline.afterTail₀ cfgs (dats m) 0 (V0 m) [hostOps1] c main_v8
      = fun _ => Ideal.div (l1 (m ((c : Thread nD τ).loc main_arg0)) (m ((c : Thread nD τ).loc main_arg1)))
          (Ideal.ofBits .f32 0x4C000000#32) := by
  unfold Pipeline.afterTail₀
  show StableHlo.after hostOps1 _ (Proc.devRef .tc main_v8) = _
  after_results
  rw [show Pipeline.withArrays (cfgs 0).spec c (V0 m c) (fun w => (dats m 0 c).arrAt w (cfgs 0).N) (Proc.devRef .tc main_v2)
      = partials m c from (Pipeline.withArrays_arr spec0 launch0.win.arr_inj c _ _ 2).trans (out_array m c)]
  exact funext fun i => (tail_apply (partials m c) i).trans (by rw [sum_partials])

/-- The run, read: the result at the L1 distance over 2²⁵, the arguments unchanged. -/
theorem run : θ_run defs (onTc (τ := τ) (main (F := Ideal))) ⟨m, fun _ => 0, ρ⟩ fun r => ∀ c : Dev nD,
      r.2.mem ((c : Thread nD τ).loc main_v8)
        = (fun _ => Ideal.div (l1 (m ((c : Thread nD τ).loc main_arg0)) (m ((c : Thread nD τ).loc main_arg1)))
            (Ideal.ofBits .f32 0x4C000000#32))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v8 (Pipeline.mem_restRefs_of main_v8 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KernelValue

end
-- ==== Proof.RefValue.lean ====
/-
  The reference's result over the extended reals: the host's sum of `|a − b|` over every index from the
  initial value zero is the L1 distance of the arguments, and the mean divides it by the literal 2²⁵.
-/
import proofs.«137766_j6820408066429_1_alg».proof.Proof.Gen.ReferenceIdeal.Read
import proofs.«137766_j6820408066429_1_alg».proof.Proof.AbsSum

noncomputable section

open Idealize.ShloMosaic Idealize.ShloMosaic.TcCoe Idealize.SL.Sem

namespace Cert.ReferenceIdeal.RefValue

open Cert.ReferenceIdeal Cert.ReferenceIdeal.Gen Cert.ReferenceIdeal.Read Cert.L1

/-- The mean of the absolute differences, as the reference computes it, is the L1 distance over 2²⁵. -/
theorem mean_eq (a0 a1 : (⟨S64x128x4096, .f32⟩ : BufTy).Contents (Elt Ideal)) :
    Host.divf (F := Ideal) (Host.reduceAdd (Host.absf (subf a0 a1)) (constant S_ .f32 0x00000000#32) reducesTo_S64x128x4096_S_d0_1_2 h_S_)
        (constant S_ .f32 0x4C000000#32)
      = fun _ => Ideal.div (l1 a0 a1) (Ideal.ofBits .f32 0x4C000000#32) := by
  rw [val_main_v3_eq]
  funext i
  rw [val_main_v3_apply, val_main_v2_apply, val_main_cst_apply, val_main_cst_0_apply]
  simp only [Ideal.hostDivf_def, Ideal.ofBits_def, Ideal.ofBits_zero_f32, zero_add]
  rfl

end Cert.ReferenceIdeal.RefValue

end
-- ==== Proof.lean ====
/- The mean absolute difference of two f32[64, 128, 4096] arrays: a two-core tiled accumulation against
   `jnp.mean(jnp.abs(yhat - y))`.

   Both programs divide a sum of `|yhatᵢ − yᵢ|` over all 2²⁵ entries by the same literal 2²⁵.  The reference sums
   every entry at once from zero.  The kernel views the arrays as 8192 rows of 4096; each of two cores walks eight
   tiles of 512 rows, keeps a running total in a one-entry scratch cell (cleared at its first tile, increased by the
   tile's lane-then-row total at every tile) and writes the total out at its last tile; the host adds the two
   totals and divides.  Over the extended reals addition is commutative and associative, so the kernel's
   bracketing of the sum is the reference's: both results are the L1 distance of the arguments over 2²⁵
   (Proof/KernelValue.lean `run`, Proof/RefValue.lean `mean_eq`; the re-indexings are Proof/AbsSum.lean).  No
   finiteness of the inputs is used.  The idealization rewrote nothing, so `preserves` is trivial; the two kernel
   frames are the generated ones and the reference's is its generated run with the result dropped. -/
import proofs.«137766_j6820408066429_1_alg».proof.Defs
import proofs.«137766_j6820408066429_1_alg».proof.Proof.Gen.Kernel
import proofs.«137766_j6820408066429_1_alg».proof.Proof.Gen.Kernel.Skeleton
import proofs.«137766_j6820408066429_1_alg».proof.Proof.Gen.Kernel.Launch
import proofs.«137766_j6820408066429_1_alg».proof.Proof.Gen.Kernel.Points
import proofs.«137766_j6820408066429_1_alg».proof.Proof.Gen.Kernel.Frame
import proofs.«137766_j6820408066429_1_alg».proof.Proof.Gen.KernelIdeal
import proofs.«137766_j6820408066429_1_alg».proof.Proof.Gen.KernelIdeal.Skeleton
import proofs.«137766_j6820408066429_1_alg».proof.Proof.Gen.KernelIdeal.Launch
import proofs.«137766_j6820408066429_1_alg».proof.Proof.Gen.KernelIdeal.Points
import proofs.«137766_j6820408066429_1_alg».proof.Proof.Gen.KernelIdeal.Frame
import proofs.«137766_j6820408066429_1_alg».proof.Proof.Gen.ReferenceIdeal
import proofs.«137766_j6820408066429_1_alg».proof.Proof.Gen.Pre_finite_inputs
import proofs.«137766_j6820408066429_1_alg».proof.Proof.Gen.ReferenceIdeal.Run
import proofs.«137766_j6820408066429_1_alg».proof.Proof.Gen.ReferenceIdeal.Read
import proofs.«137766_j6820408066429_1_alg».proof.Proof.KernelValue
import proofs.«137766_j6820408066429_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the L1 distance of the (agreeing) arguments over 2²⁵ in their result. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.mean_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
